-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x262144 : Shape := ⟨3, ![16, 8, 262144]⟩
abbrev S_ : Shape := ⟨0, ![]⟩

class Facts : Prop where
  bcast_S_S16x8x262144 : S_.BroadcastsInDim S16x8x262144 (![] : Fin 0 → Fin S16x8x262144.rank)
  reducesTo_S16x8x262144_S_d0_1_2 : S16x8x262144.ReducesTo [0, 1, 2] S_
  h_S_ : 0 < S_.numel

variable [Facts]

def fn {F : FTy → Type} [FloatOps F] (main_arg0 : FVec F S16x8x262144 .f32) : IVec S_ 1 :=
  let main_v0 : FVec F S16x8x262144 .f32 := Host.absf main_arg0
  let main_cst : FVec F S_ .f32 := constant S_ .f32 0x7F800000#32
  let main_v1 : FVec F S16x8x262144 .f32 := broadcastInDim S16x8x262144 ![] bcast_S_S16x8x262144 main_cst
  let main_v2 : IVec S16x8x262144 1 := cmpf .olt main_v0 main_v1
  let main_c : IVec S_ 1 := constantI S_ 1 1#1
  let main_v3 : IVec S_ 1 := (fun x v => Host.reduce IntOp.andi x v reducesTo_S16x8x262144_S_d0_1_2 h_S_) main_v2 main_c
  main_v3
-- ==== Kernel.lean ====
abbrev S16x8x262144 : Shape := ⟨3, ![16, 8, 262144]⟩
abbrev S8 : Shape := ⟨1, ![8]⟩
abbrev S_ : Shape := ⟨0, ![]⟩
abbrev S1x8x1 : Shape := ⟨3, ![1, 8, 1]⟩
abbrev S16x8x16384 : Shape := ⟨3, ![16, 8, 16384]⟩

abbrev nBuf : Space → Nat
  | .hbm => 13
  | .vmem => 5
  | .smem => 0
  | _ => 0

abbrev bufTy : (tb : Table) → Fin (tcTables nBuf tb) → BufTy
  | .hbm, ⟨0, _⟩ => ⟨S16x8x262144, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i1⟩
  | .hbm, ⟨5, _⟩ => ⟨S_, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S1x8x1, .f32⟩
  | .hbm, ⟨12, _⟩ => ⟨S16x8x262144, .f32⟩
  | .local _ .vmem, ⟨0, _⟩ => ⟨S16x8x16384, .f32⟩
  | .local _ .vmem, ⟨1, _⟩ => ⟨S16x8x16384, .f32⟩
  | .local _ .vmem, ⟨2, _⟩ => ⟨S1x8x1, .f32⟩
  | .local _ .vmem, ⟨3, _⟩ => ⟨S16x8x16384, .f32⟩
  | .local _ .vmem, ⟨4, _⟩ => ⟨S16x8x16384, .f32⟩
  | _, _ => ⟨S16x8x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S16x8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x8x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8 : S_.BroadcastsInDim S8 (![] : Fin 0 → Fin S8.rank)
  shapeCasts_S8_S1x8x1 : S8.ShapeCasts S1x8x1
  inb_S16x8x16384_S16x8x16384_0_0_0 : ∀ a, (![0, 0, 0] : Fin 3 → Nat) a + S16x8x16384.size a ≤ S16x8x16384.size a
  h_S16x8x16384 : 0 < S16x8x16384.numel
  inb_S1x8x1_S1x8x1_0_0_0 : ∀ a, (![0, 0, 0] : Fin 3 → Nat) a + S1x8x1.size a ≤ S1x8x1.size a
  h_S1x8x1 : 0 < S1x8x1.numel
  shapeCasts_S1x8x1_S1x8x1 : S1x8x1.ShapeCasts S1x8x1
  broadcasts_S1x8x1_S16x8x16384 : S1x8x1.Broadcasts S16x8x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8x16384.size a ≤ S16x8x262144.size a
  hwx0_0 : ∀ i : grid0.Coords, EltTy.bits .f32 = 32 ∨ (Rect.block (s := S16x8x262144) S16x8x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8x1.size a ≤ S1x8x1.size a
  hwx0_1 : ∀ i : grid0.Coords, EltTy.bits .f32 = 32 ∨ (Rect.block (s := S1x8x1) S1x8x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x8x16384.size a ≤ S16x8x262144.size a
  hwx0_2 : ∀ i : grid0.Coords, EltTy.bits .f32 = 32 ∨ (Rect.block (s := S16x8x262144) S16x8x16384.size (cc0_transform_2 i) (hinb0_2 i)).WholeWords (EltTy.packing .f32)

variable [Facts₀]

abbrev win0_0 : Pipeline.Window sig grid0 :=
  Pipeline.Window.ofSpec (Memref.whole main_arg0) S16x8x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x8x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S16x8x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x8x262144 : Shape := ⟨3, ![16, 8, 262144]⟩
abbrev S8 : Shape := ⟨1, ![8]⟩
abbrev S_ : Shape := ⟨0, ![]⟩
abbrev S1x8x1 : Shape := ⟨3, ![1, 8, 1]⟩

abbrev nBuf : Space → Nat
  | .hbm => 14
  | .vmem => 0
  | .smem => 0
  | _ => 0

abbrev bufTy : (tb : Table) → Fin (tcTables nBuf tb) → BufTy
  | .hbm, ⟨0, _⟩ => ⟨S16x8x262144, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i1⟩
  | .hbm, ⟨5, _⟩ => ⟨S_, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S1x8x1, .f32⟩
  | .hbm, ⟨12, _⟩ => ⟨S16x8x262144, .f32⟩
  | .hbm, ⟨13, _⟩ => ⟨S16x8x262144, .f32⟩
  | _, _ => ⟨S16x8x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x8x1_1 : S8.BroadcastsInDim S1x8x1 (![1] : Fin 1 → Fin S1x8x1.rank)
  bcast_S1x8x1_S16x8x262144_0_1_2 : S1x8x1.BroadcastsInDim S16x8x262144 (![0, 1, 2] : Fin 3 → Fin S16x8x262144.rank)

variable [Facts₀]

class Facts : Prop extends Facts₀ where

variable [Facts]
-- ==== Proof.ChannelScale.lean ====
/-
  The function both programs compute. An array of shape [16, 8, 262144] is scaled channel by channel: the entry at
  (b, c, t) is multiplied by the factor of its channel c, the middle coordinate. The eight factors are 1 on
  channel 0 and 1/2 on the other seven; both programs build them by the same host operations (a select between the
  two broadcast constants on "the channel number is 0"), so they are kept here as that term and never evaluated:
  the two sides meet in one product per entry, the same two operands on each side.

  The kernel receives the factors as a [1, 8, 1] column (the reshape of the [8] vector); `col_read` says the column
  at (0, c, 0) is the vector at c, the two positions being the same row-major position c.
-/
import Idealize.ShloMosaic.Lib.ValueIdx
import Idealize.ShloMosaic.Lib.Pipeline.Value

noncomputable section

namespace Cert.ChannelScale

open Idealize.ShloMosaic Idealize.ShloMosaic.ValueIdx

/-- The array's shape: batch, channel, time. -/
abbrev Arr : Shape := ⟨3, ![16, 8, 262144]⟩
/-- The factors' shape: one per channel. -/
abbrev Chan : Shape := ⟨1, ![8]⟩
/-- The factors as the kernel receives them: a column along the channel axis. -/
abbrev Col : Shape := ⟨3, ![1, 8, 1]⟩
/-- The scalar shape of the two constants. -/
abbrev Sc : Shape := ⟨0, ![]⟩

variable {F : FTy → Type} [FloatOps F]

/-- The eight factors: where the channel number equals 0 the constant 1 (word 0x3F800000), elsewhere the constant
    1/2 (word 0x3F000000). -/
def factors (h : Sc.BroadcastsInDim Chan (![] : Fin 0 → Fin Chan.rank)) : FVec F Chan .f32 :=
  select (cmpi .eq (iotaInDim Chan 32 0) (broadcastInDim Chan ![] h (constantI Sc 32 0#32)))
    (broadcastInDim Chan ![] h (constant Sc .f32 0x3F800000#32))
    (broadcastInDim Chan ![] h (constant Sc .f32 0x3F000000#32))

/-- The array scaled channel by channel: entry (b, c, t) times the factor of channel c. -/
def scaled (x : FVec F Arr .f32) (s : FVec F Chan .f32) : FVec F Arr .f32 :=
  fun i => FloatOps.mulf (x i) (s (ix1 (n := 8) (i 1)))

/-- The [8] vector reshaped to a [1, 8, 1] column, read at (0, c, 0), is the vector at c. -/
theorem col_read {α : Type} (s : Chan.Idx → α) (h : Chan.ShapeCasts Col) (k : Fin 8) :
    shapeCast Col s h (ix3 (0 : Fin 1) k (0 : Fin 1)) = s (ix1 k) := by
  refine shapeCast_apply s h _ _ ?_
  rw [Shape.rowMajor_val_one, Shape.rowMajor_val_three]
  show k.val = (0 * 8 + k.val) * 1 + 0
  omega

end Cert.ChannelScale

end
-- ==== Proof.KernelBlocks.lean ====
/-
  The kernel's result is the array scaled channel by channel. The grid has sixteen points; at point t the body
  multiplies the block of x that holds batch 0..15, channel 0..7, time 16384 t .. 16384 t + 16383 by the [1, 8, 1]
  column of factors broadcast over batch and time, and writes the product back to the same block of the output.

  Three facts make this the specification's function: the column the region finds is the reshape of the factor vector
  (the host operations before the region), so at (0, c, 0) it holds the factor of channel c; the block's entry
  (b, c, s) sits at (b, c, 16384 t + s) of the array, the channel coordinate untouched, so the body's product there is
  x (b, c, 16384 t + s) times the factor of channel c; and the sixteen blocks cover the array, the entry (b, c, s)
  lying in the block of point s / 16384.
-/
import proofs.«161396_j54365696033604_1_alg».proof.Proof.Gen.KernelIdeal.Value
import proofs.«161396_j54365696033604_1_alg».proof.Proof.ChannelScale
import Idealize.ShloMosaic.Lib.StableHlo.Run

set_option maxRecDepth 16384

noncomputable section

namespace Cert.KernelIdeal.Blocks

open Cert.KernelIdeal Cert.KernelIdeal.Gen Cert.KernelIdeal.Value
open Idealize.ShloMosaic Idealize.ShloMosaic.TcCoe Idealize.SL.Sem Idealize.ShloMosaic.StableHlo
open Idealize.ShloMosaic.Pipeline (Dat)
open Idealize.ShloMosaic.ValueIdx Cert.ChannelScale

variable {F : FTy → Type} [FloatOps F]
variable (m : (ℓ : Loc nD τ sig) → Buf (Elt F) ℓ) (ρ : Dev nD → PrngReg)

/-- The column the region finds in window 1's array: the host operations before the region leave there the reshape
    of the factor vector. -/
theorem column_eq (c : Dev nD) :
    (V m c main_v5 : S1x8x1.Idx → F .f32) = shapeCast S1x8x1 (factors (F := F) bcast_S_S8) shapeCasts_S8_S1x8x1 := by
  dsimp only [Gen.V]
  simp only [Gen.hostOps0, Gen.hostOps0_1, Gen.hostOps0_2, List.flatten_cons, List.flatten_nil, List.append_nil,
    List.cons_append, List.nil_append]
  after_results
  rfl

/-- The body loads and stores at offset (0, 0, 0): each access is the whole staging block. -/
theorem zero_off : (![0, 0, 0] : Fin 3 → Nat) = fun _ => 0 := funext fun a => by fin_cases a <;> rfl

/-- The printed index maps, decided over the sixteen points: the input block of the array moves with the output
    block; the column's one block stays where it is; the output's block index at point t is (0, 0, t). -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = win0_2.index t (2 : Fin 3)
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = t.val :=
  (by decide +kernel : ∀ t : Fin grid0.N, _)

/-- What point t writes back is block t of the channel-scaled array: the body's product at a block entry reads x at the
    array entry under it and the column at that entry's channel. -/
theorem flushed_eq (c : Dev nD) (t : Fin cfg0.N) :
    (dats m 0 c).flushed 2 t
      = ((cfg0.win 2).blk t).view.read (Elt F) (scaled (V m c main_arg0) (factors bcast_S_S8)) := by
  rw [flushed2]
  funext j
  show out0_2 (iblk m c 0 t) (iblk m c 1 t) j = _
  unfold out0_2
  rw [canon2_eq]
  simp only [View.ld_unit_zero (S := S16x8x16384) zero_off, View.ld_unit_zero (S := S1x8x1) zero_off]
  obtain ⟨e0, e1, e2, f0, f1, f2, g0, g1, g2⟩ := idx_facts t
  have hj0 : (j 0).val < 16 := (j 0).isLt
  have hj1 : (j 1).val < 8 := (j 1).isLt
  have hj2 : (j 2).val < 16384 := (j 2).isLt
  show FloatOps.mulf (V m c main_arg0 (((cfg0.win 0).blk t).view.emb (ix2_0 j)))
        (V m c main_v5 (((cfg0.win 1).blk t).view.emb (ix2_1 j)))
      = FloatOps.mulf (V m c main_arg0 (((cfg0.win 2).blk t).view.emb j))
        (factors (F := F) bcast_S_S8 (ix1 (n := 8) ((((cfg0.win 2).blk t).view.emb j) 1)))
  have h0 : ((cfg0.win 0).blk t).view.emb (ix2_0 j) = ((cfg0.win 2).blk t).view.emb j := by
    funext a; apply Fin.ext
    match a with
    | ⟨0, _⟩ => show win0_0.index t (0 : Fin 3) * 16 + 1 * (j 0).val = win0_2.index t (0 : Fin 3) * 16 + 1 * (j 0).val; omega
    | ⟨1, _⟩ => show win0_0.index t (1 : Fin 3) * 8 + 1 * (j 1).val = win0_2.index t (1 : Fin 3) * 8 + 1 * (j 1).val; omega
    | ⟨2, _⟩ => show win0_0.index t (2 : Fin 3) * 16384 + 1 * (j 2).val = win0_2.index t (2 : Fin 3) * 16384 + 1 * (j 2).val; omega
  have h1 : ((cfg0.win 1).blk t).view.emb (ix2_1 j) = ix3 (0 : Fin 1) (⟨(j 1).val, hj1⟩ : Fin 8) (0 : Fin 1) := by
    funext a; apply Fin.ext
    match a with
    | ⟨0, _⟩ => show win0_1.index t (0 : Fin 3) * 1 + 1 * 0 = 0; omega
    | ⟨1, _⟩ => show win0_1.index t (1 : Fin 3) * 8 + 1 * (j 1).val = (j 1).val; omega
    | ⟨2, _⟩ => show win0_1.index t (2 : Fin 3) * 1 + 1 * 0 = 0; omega
  have h2 : ix1 (n := 8) ((((cfg0.win 2).blk t).view.emb j) 1) = ix1 (⟨(j 1).val, hj1⟩ : Fin 8) := by
    congr 1; apply Fin.ext
    show win0_2.index t (1 : Fin 3) * 8 + 1 * (j 1).val = (j 1).val
    omega
  rw [h0, h1, h2, column_eq, col_read]

/-- An entry of the array lies in point t's output block iff each coordinate lies in the block's range on its axis. -/
theorem mem_blk (t : Fin cfg0.N) (i : S16x8x262144.Idx) :
    i ∈ ((cfg0.win 2).blk t).view.set ↔ ∀ a : Fin 3, win0_2.index t a * S16x8x16384.size a ≤ (i a).val
      ∧ (i a).val < win0_2.index t a * S16x8x16384.size a + S16x8x16384.size a := by
  show i ∈ ((View.whole main_v6).slice (win0_2.rect t)).set ↔ _
  rw [View.set_slice_whole, Rect.mem_set_unit]
  exact Iff.rfl

/-- Every entry (b, c, s) of the array is written back by the point s / 16384: the sixteen blocks cut the time axis
    into consecutive stretches of 16384 and span batch and channel whole. -/
theorem cover (i : S16x8x262144.Idx) :
    ∃ t : Fin cfg0.N, (cfg0.win 2).flush t = true ∧ i ∈ ((cfg0.win 2).blk t).view.set := by
  have hi0 : (i 0).val < 16 := (i 0).isLt
  have hi1 : (i 1).val < 8 := (i 1).isLt
  have hi2 : (i 2).val < 262144 := (i 2).isLt
  have hlt : (i 2).val / 16384 < cfg0.N := by
    show (i 2).val / 16384 < grid0.N
    rw [N_0]; omega
  obtain ⟨-, -, -, -, -, -, g0, g1, g2⟩ := idx_facts (⟨(i 2).val / 16384, hlt⟩ : Fin cfg0.N)
  have g2' : win0_2.index (⟨(i 2).val / 16384, hlt⟩ : Fin cfg0.N) (2 : Fin 3) = (i 2).val / 16384 := g2
  refine ⟨⟨(i 2).val / 16384, hlt⟩, flush0_2 _, ?_⟩
  rw [mem_blk]
  intro a
  match a with
  | ⟨0, _⟩ =>
    show win0_2.index ⟨(i 2).val / 16384, hlt⟩ (0 : Fin 3) * 16 ≤ (i 0).val
      ∧ (i 0).val < win0_2.index ⟨(i 2).val / 16384, hlt⟩ (0 : Fin 3) * 16 + 16
    omega
  | ⟨1, _⟩ =>
    show win0_2.index ⟨(i 2).val / 16384, hlt⟩ (1 : Fin 3) * 8 ≤ (i 1).val
      ∧ (i 1).val < win0_2.index ⟨(i 2).val / 16384, hlt⟩ (1 : Fin 3) * 8 + 8
    omega
  | ⟨2, _⟩ =>
    show win0_2.index ⟨(i 2).val / 16384, hlt⟩ (2 : Fin 3) * 16384 ≤ (i 2).val
      ∧ (i 2).val < win0_2.index ⟨(i 2).val / 16384, hlt⟩ (2 : Fin 3) * 16384 + 16384
    omega

/-- The output array after the run is the argument array scaled channel by channel. -/
theorem final (c : Dev nD) :
    (dats m 0 c).arrAt 2 cfg0.N = scaled (m ((c : Thread nD τ).loc main_arg0)) (factors bcast_S_S8) := by
  have h := (dats m 0 c).arrAt_eq_of_cover 2 (scaled (V m c main_arg0) (factors bcast_S_S8))
    (fun t _ => flushed_eq m c t) cover
  rw [h, V_main_arg0]

/-- The kernel's run with its result named: the channel-scaled argument; the argument unchanged. -/
theorem run : θ_run defs (onTc (τ := τ) (main (F := F))) ⟨m, fun _ => 0, ρ⟩ fun r => ∀ c : Dev nD,
      r.2.mem ((c : Thread nD τ).loc main_v6) = scaled (m ((c : Thread nD τ).loc main_arg0)) (factors bcast_S_S8)
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Blocks

end
-- ==== Proof.RefValue.lean ====
/-
  The reference's result is the array scaled channel by channel. Its host program broadcasts the eight factors first
  to a [1, 8, 1] column and then to the whole [16, 8, 262144] shape and multiplies; read at an entry (b, c, t) the
  two broadcasts pick the factor of channel c (the column's only free coordinate is the channel, and the full
  broadcast copies the column along batch and time), so the product there is x (b, c, t) times that factor.
-/
import proofs.«161396_j54365696033604_1_alg».proof.Proof.Gen.ReferenceIdeal.Read
import proofs.«161396_j54365696033604_1_alg».proof.Proof.ChannelScale

noncomputable section

namespace Cert.ReferenceIdeal.RefValue

open Cert.ReferenceIdeal Cert.ReferenceIdeal.Gen Cert.ReferenceIdeal.Read
open Idealize.ShloMosaic Idealize.ShloMosaic.ValueIdx Cert.ChannelScale

variable {F : FTy → Type} [FloatOps F]

/-- The reference's factor vector (the select, after the identity conversion) is the specification's. -/
theorem factors_eq : val_main_v4 (F := F) = factors (F := F) bcast_S_S8 := rfl

/-- Through the two broadcasts an entry of the array reads the factor vector at its channel. -/
theorem chan_idx (i : S16x8x262144.Idx) : idx_main_v5 (idx_main_v6 i) = ix1 (n := 8) (i 1) := by
  funext a
  match a with
  | ⟨0, _⟩ => rfl

/-- The reference's product is the channel-scaled array. -/
theorem result_eq (x : FVec F Arr .f32) : val_main_v7 (F := F) x = scaled x (factors bcast_S_S8) := by
  funext i
  rw [val_main_v7_apply, val_main_v6_apply, val_main_v5_apply, chan_idx, factors_eq]
  rfl

end Cert.ReferenceIdeal.RefValue

end
-- ==== Proof.lean ====
/-
  The kernel multiplies x : f32[16, 8, 262144] by a per-channel factor (1 on channel 0, 1/2 on channels 1..7), block
  by block along the time axis, the factors handed to it as a [1, 8, 1] column; the reference multiplies x by the same
  eight factors broadcast over batch and time on the host. Over the extended reals both results are, entry by entry,
  x (b, c, t) times the factor of channel c: one product with the same two operands on each side, so no algebraic law
  and no finiteness of x is used (ChannelScale.lean states the function, KernelBlocks.lean reads the kernel's run as
  it, RefValue.lean the reference's). The ideal pass rewrote nothing, so the idealization claim is trivial; the frames
  are the generated ones, the reference's being its run with the result dropped.
-/
import proofs.«161396_j54365696033604_1_alg».proof.Defs
import proofs.«161396_j54365696033604_1_alg».proof.Proof.Gen.Kernel
import proofs.«161396_j54365696033604_1_alg».proof.Proof.Gen.Kernel.Skeleton
import proofs.«161396_j54365696033604_1_alg».proof.Proof.Gen.Kernel.Launch
import proofs.«161396_j54365696033604_1_alg».proof.Proof.Gen.Kernel.Points
import proofs.«161396_j54365696033604_1_alg».proof.Proof.Gen.Kernel.Frame
import proofs.«161396_j54365696033604_1_alg».proof.Proof.Gen.KernelIdeal
import proofs.«161396_j54365696033604_1_alg».proof.Proof.Gen.KernelIdeal.Skeleton
import proofs.«161396_j54365696033604_1_alg».proof.Proof.Gen.KernelIdeal.Launch
import proofs.«161396_j54365696033604_1_alg».proof.Proof.Gen.KernelIdeal.Points
import proofs.«161396_j54365696033604_1_alg».proof.Proof.Gen.KernelIdeal.Frame
import proofs.«161396_j54365696033604_1_alg».proof.Proof.Gen.ReferenceIdeal
import proofs.«161396_j54365696033604_1_alg».proof.Proof.Gen.Pre_finite_inputs
import proofs.«161396_j54365696033604_1_alg».proof.Proof.Gen.KernelIdeal.Value
import proofs.«161396_j54365696033604_1_alg».proof.Proof.Gen.ReferenceIdeal.Run
import proofs.«161396_j54365696033604_1_alg».proof.Proof.Gen.ReferenceIdeal.Read
import proofs.«161396_j54365696033604_1_alg».proof.Proof.ChannelScale
import proofs.«161396_j54365696033604_1_alg».proof.Proof.KernelBlocks
import proofs.«161396_j54365696033604_1_alg».proof.Proof.RefValue
import Idealize.ShloMosaic.Adequacy
import Idealize.ShloMosaic.Init

noncomputable section

namespace Cert.Proof

open Idealize.ShloMosaic Idealize.SL.Sem

/-- The word-level kernel terminates without a fault and leaves x as it was: the generated frame. -/
theorem frame_kernel : Cert.frame_Kernel := fun m ρ _ => Cert.Kernel.Gen.frame m ρ

/-- The same for the kernel read over the extended reals. -/
theorem frame_kernelIdeal : Cert.frame_KernelIdeal := fun m ρ _ => Cert.KernelIdeal.Gen.frame m ρ

/-- The reference terminates and leaves x as it was: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x both programs end with the channel-scaled x: the kernel's output array by its blocks,
    the reference's product through its two broadcasts. -/
theorem algebraic : Cert.algebraic_KernelIdeal_ReferenceIdeal := by
  intro m ρ m' ρ' _ hagree
  refine ⟨_, Cert.KernelIdeal.Blocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
